-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S2048x128 : Shape := ⟨2, ![2048, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 9
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x1, .i32⟩
  | .hbm, ⟨3, _⟩ => ⟨S1x16384, .i32⟩
  | .hbm, ⟨4, _⟩ => ⟨S16384x16384, .i32⟩
  | .hbm, ⟨5, _⟩ => ⟨S16384x16384, .i32⟩
  | .hbm, ⟨6, _⟩ => ⟨S16384x16384, .i1⟩
  | .hbm, ⟨7, _⟩ => ⟨S16384x16384, .f32⟩
  | .hbm, ⟨8, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  dot_S16384x16384_S16384x128_S16384x128_1_0_0_1_n_n_wf : DotDims.WF S16384x16384 S16384x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.CopyValue.lean ====
/-
  The kernel copies its argument block by block: at grid point t it loads the whole 2048 x 128 input block and
  stores it whole into the output block, and both windows sit on rows 2048 t to 2048 t + 2047 of their arrays.
  So what point t writes back is block t of the argument array, and the eight blocks tile the 16384 rows: row r
  lies in block r / 2048. The output array therefore ends holding the argument array.
-/
import proofs.«170288_j3977139716495_1_alg».proof.Proof.Gen.KernelIdeal.Value

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's load and store both start at the block's origin. -/
theorem origin : (![0, 0] : Fin 2 → Nat) = fun _ => 0 := funext fun a => by fin_cases a <;> rfl

/-- The two index maps agree at every grid point, and send point t to block row t below 8, block column 0. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point t writes back is block t of the argument array as the region finds it. -/
theorem flushed_eq (c : Dev nD) (t : Fin cfg0.N) :
    (dats m 0 c).flushed 1 t = ((cfg0.win 1).blk t).view.read (Elt F) (V m c main_arg0) := by
  show (cfg0.win 1).cut (grid0.coords t) ((dats m 0 c).after 1 t) = _
  rw [after0_1]
  unfold out0_1
  rw [View.canon_unit_zero origin]
  simp only [View.ld_unit_zero (S := S2048x128) origin]
  obtain ⟨e0, e1, -, -⟩ := index_facts t
  funext j
  show V m c main_arg0 (((cfg0.win 0).blk t).view.emb j) = V m c main_arg0 (((cfg0.win 1).blk t).view.emb j)
  refine congrArg (V m c main_arg0) (funext fun a => Fin.ext ?_)
  match a with
  | ⟨0, _⟩ => show win0_0.index t (0 : Fin 2) * 2048 + 1 * (j 0).val = win0_1.index t (0 : Fin 2) * 2048 + 1 * (j 0).val; omega
  | ⟨1, _⟩ => show win0_0.index t (1 : Fin 2) * 128 + 1 * (j 1).val = win0_1.index t (1 : Fin 2) * 128 + 1 * (j 1).val; omega

/-- An index of the output array is in point t's block iff each coordinate is in the block's range on its axis. -/
theorem mem_block (t : Fin cfg0.N) (i : S16384x128.Idx) :
    i ∈ ((cfg0.win 1).blk t).view.set ↔ ∀ a : Fin 2, win0_1.index t a * S2048x128.size a ≤ (i a).val ∧ (i a).val < win0_1.index t a * S2048x128.size a + S2048x128.size a := by
  show i ∈ ((View.whole main_v0).slice (win0_1.rect t)).set ↔ _
  rw [View.set_slice_whole, Rect.mem_set_unit]
  exact Iff.rfl

/-- Every index of the output array is in the block of the point its row number divided by 2048 names. -/
theorem covered (i : S16384x128.Idx) :
    ∃ t : Fin cfg0.N, (cfg0.win 1).flush t = true ∧ i ∈ ((cfg0.win 1).blk t).view.set := by
  have hi0 : (i 0).val < 16384 := (i 0).isLt
  have hi1 : (i 1).val < 128 := (i 1).isLt
  let t : Fin cfg0.N := ⟨(i 0).val / 2048, by show (i 0).val / 2048 < 8; omega⟩
  obtain ⟨-, -, q0, q1⟩ := index_facts t
  have ht : t.val = (i 0).val / 2048 := rfl
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 128 ≤ (i 1).val ∧ (i 1).val < win0_1.index t (1 : Fin 2) * 128 + 128; omega

/-- The output array after the run is the argument array. -/
theorem final (c : Dev nD) : (dats m 0 c).arrAt 1 cfg0.N = m ((c : Thread nD τ).loc main_arg0) :=
  ((dats m 0 c).arrAt_eq_of_cover 1 (V m c main_arg0) (fun t _ => flushed_eq m c t) covered).trans (V_main_arg0 m c)

/-- The kernel's run with its result named: the output array ends holding the argument array, which is unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.CopyValue

end
-- ==== Proof.IdentityRow.lean ====
/-
  A row of the identity matrix, as the host spells it: entry (r, k) is the one-bit word of the comparison
  "the 32-bit word of r equals the 32-bit word of k", converted to a float. For r, k below 2³² the two words
  are equal exactly when r = k, so at the extended reals the entry is 1 on the diagonal and 0 off it, and a
  sum over k of entry (r, k) times x k keeps the single term x r. No finiteness is needed: on the extended
  reals 0 · x = 0 and 1 · x = x for every x, the infinities included.
-/
import Idealize.ShloMosaic.PureOps.Ideal
import Idealize.ShloMosaic.Lib.StableHlo.Predicate
import Mathlib.Algebra.BigOperators.Group.Finset.Basic

noncomputable section

namespace Cert.IdentityRow

open Idealize.ShloMosaic

/-- Two numbers below 2³² with the same 32-bit word are the same number. -/
theorem eq_of_word_eq {a b : ℕ} (ha : a < 2 ^ 32) (hb : b < 2 ^ 32)
    (h : BitVec.ofNat 32 a = BitVec.ofNat 32 b) : a = b := by
  have h' := congrArg BitVec.toNat h
  simp only [BitVec.toNat_ofNat] at h'
  omega

/-- The comparison bit of a word with itself is set. -/
theorem bit_diag (a : ℕ) : IntOp.cmpi .eq (BitVec.ofNat 32 a) (BitVec.ofNat 32 a) = 1#1 :=
  StableHlo.Predicate.cmpi_eq_iff.mpr rfl

/-- The comparison bit of the words of two different numbers below 2³² is clear. -/
theorem bit_off {a b : ℕ} (ha : a < 2 ^ 32) (hb : b < 2 ^ 32) (hne : a ≠ b) :
    IntOp.cmpi .eq (BitVec.ofNat 32 a) (BitVec.ofNat 32 b) = 0#1 := by
  have hw : BitVec.ofNat 32 a ≠ BitVec.ofNat 32 b := fun h => hne (eq_of_word_eq ha hb h)
  simp only [IntOp.cmpi, beq_eq_false_iff_ne.mpr hw]
  rfl

/-- Entry (r, k) of the identity matrix at the extended reals: the converted comparison bit. -/
def entry (r k : ℕ) : EReal :=
  FloatOps.uitofp (F := Ideal) .f32 (IntOp.cmpi .eq (BitVec.ofNat 32 r) (BitVec.ofNat 32 k))

theorem entry_diag (r : ℕ) : entry r r = 1 := by
  unfold entry
  rw [bit_diag]
  show (((1#1 : BitVec 1).toNat : ℝ) : EReal) = 1
  norm_num

theorem entry_off {r k : ℕ} (hr : r < 2 ^ 32) (hk : k < 2 ^ 32) (hne : r ≠ k) : entry r k = 0 := by
  unfold entry
  rw [bit_off hr hk hne]
  show (((0#1 : BitVec 1).toNat : ℝ) : EReal) = 0
  norm_num

/-- A row of the identity matrix against a vector: the sum keeps the one term on the diagonal. -/
theorem sum_entry_mul {n : ℕ} (hn : n ≤ 2 ^ 32) (r : Fin n) (x : Fin n → EReal) :
    ∑ k : Fin n, entry r.val k.val * x k = x r := by
  rw [Finset.sum_eq_single r]
  · rw [entry_diag, one_mul]
  · intro k _ hk
    have hne : r.val ≠ k.val := fun h => hk (Fin.ext h.symm)
    rw [entry_off (lt_of_lt_of_le r.isLt hn) (lt_of_lt_of_le k.isLt hn) hne, zero_mul]
  · intro h
    exact absurd (Finset.mem_univ r) h

end Cert.IdentityRow

end
-- ==== Proof.ReferenceIsArg.lean ====
/-
  The reference multiplies the identity matrix into its argument. The identity matrix is built on the host as
  the comparison of a column of row numbers with a row of column numbers, converted to a float: entry (r, k)
  is the converted bit "the word of r equals the word of k". Read at an index (r, q), the matrix product is the
  sum over k of entry (r, k) times the argument at (k, q), and a row of the identity keeps the single term at
  k = r: the result is the argument itself, on every extended real.
-/
import proofs.«170288_j3977139716495_1_alg».proof.Proof.Gen.ReferenceIdeal.Read
import proofs.«170288_j3977139716495_1_alg».proof.Proof.IdentityRow

noncomputable section

namespace Cert.ReferenceIdeal.RefValue

open Cert.ReferenceIdeal Cert.ReferenceIdeal.Gen Cert.ReferenceIdeal.Read Idealize.ShloMosaic

/-- The host's one-hot matrix at row `i 0`, column `k`, is the identity's entry there: the row number travels
    through the two broadcasts of the first iota, the column number through the broadcast of the second. -/
theorem onehot_apply (i : S16384x128.Idx) (k : Fin 16384) :
    val_main_v1 (F := Ideal) (lidx_main_v2 i k) = Cert.IdentityRow.entry (i 0).val k.val := by
  rw [val_main_v1_apply, val_main_call0_v4_apply, val_main_call0_v2_apply, val_main_call0_v0_apply, val_main_v0_apply,
    val_main_call0_v3_apply, val_main_call0_v1_apply]
  rfl

/-- The matrix product with the identity, read at an index, is the argument at that index. -/
theorem product_apply (x : (⟨S16384x128, .f32⟩ : BufTy).Contents (Elt Ideal)) (i : S16384x128.Idx) :
    val_main_v2 (F := Ideal) x i = x i := by
  rw [val_main_v2_apply]
  refine (Finset.sum_congr rfl fun k _ => congrArg (· * x (ridx_main_v2 i k)) (onehot_apply i k)).trans ?_
  refine (Cert.IdentityRow.sum_entry_mul (n := 16384) (by norm_num) ⟨(i 0).val, (i 0).isLt⟩
    (fun k => x (ridx_main_v2 i k))).trans ?_
  exact congrArg x (funext fun a => Fin.ext (by
    match a with
    | ⟨0, _⟩ => rfl
    | ⟨1, _⟩ => rfl))

/-- The reference's result, as the generated run states it, is its argument. -/
theorem result_eq (x : FVec Ideal S16384x128 .f32) :
    Host.dotGeneral (F := Ideal) dot_S16384x16384_S16384x128_S16384x128_1_0_0_1_n_n none (uitofp (F := Ideal) .f32 (cmpi .eq (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (iotaInDim S1x16384 32 1)))) x
      = x :=
  (val_main_v2_eq (F := Ideal) x).trans (funext fun i => product_apply x i)

end Cert.ReferenceIdeal.RefValue

end
-- ==== Proof.lean ====
/-
  The kernel copies its argument, a 16384 x 128 array, to its result in eight blocks of 2048 rows; the reference
  multiplies the 16384 x 16384 identity matrix, built as a comparison of row numbers with column numbers, into the
  same argument. At the extended reals both results are the argument itself:
    * the kernel's, because each grid point writes back the block of the argument it loaded, and the eight blocks
      tile the rows (Proof/CopyValue.lean, over the generated blockwise value leg);
    * the reference's, because entry (r, q) of the product is the sum over k of [r = k] · W (k, q), and a sum against
      a row of the identity keeps one term, since 0 · x = 0 and 1 · x = x on every extended real
      (Proof/IdentityRow.lean, Proof/ReferenceIsArg.lean, over the generated run and its read-at-an-index lemmas).
  Neither step needs the inputs finite, so the precondition is never opened. The kernel's two frames are the
  generated ones, the reference's is its generated run with the result dropped, and the idealization rewrote
  nothing, so that conjunct is trivial.
-/
import proofs.«170288_j3977139716495_1_alg».proof.Defs
import proofs.«170288_j3977139716495_1_alg».proof.Proof.Gen.Kernel
import proofs.«170288_j3977139716495_1_alg».proof.Proof.Gen.Kernel.Skeleton
import proofs.«170288_j3977139716495_1_alg».proof.Proof.Gen.Kernel.Launch
import proofs.«170288_j3977139716495_1_alg».proof.Proof.Gen.Kernel.Points
import proofs.«170288_j3977139716495_1_alg».proof.Proof.Gen.Kernel.Frame
import proofs.«170288_j3977139716495_1_alg».proof.Proof.Gen.KernelIdeal
import proofs.«170288_j3977139716495_1_alg».proof.Proof.Gen.KernelIdeal.Skeleton
import proofs.«170288_j3977139716495_1_alg».proof.Proof.Gen.KernelIdeal.Launch
import proofs.«170288_j3977139716495_1_alg».proof.Proof.Gen.KernelIdeal.Points
import proofs.«170288_j3977139716495_1_alg».proof.Proof.Gen.KernelIdeal.Frame
import proofs.«170288_j3977139716495_1_alg».proof.Proof.Gen.ReferenceIdeal
import proofs.«170288_j3977139716495_1_alg».proof.Proof.Gen.Pre_finite_inputs
import proofs.«170288_j3977139716495_1_alg».proof.Proof.Gen.KernelIdeal.Value
import proofs.«170288_j3977139716495_1_alg».proof.Proof.Gen.ReferenceIdeal.Run
import proofs.«170288_j3977139716495_1_alg».proof.Proof.Gen.ReferenceIdeal.Read
import proofs.«170288_j3977139716495_1_alg».proof.Proof.CopyValue
import proofs.«170288_j3977139716495_1_alg».proof.Proof.ReferenceIsArg
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the argument array in their result: the kernel's copy of it, and the reference's
    product of the identity matrix with it, from memories that agree on the argument. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.CopyValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  exact hagree c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
